-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x64 .f32) (main_arg1 : IVec S2x800000 32) (main_arg2 : FVec F S64x128 .f32) (main_arg3 : FVec F S128 .f32) (main_arg4 : FVec F S128x64 .f32) (main_arg5 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x128 .f32 := Host.absf main_arg2
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S50000x64 : Shape := ⟨2, ![50000, 64]⟩
abbrev S2x800000 : Shape := ⟨2, ![2, 800000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S50000x128 : Shape := ⟨2, ![50000, 128]⟩
abbrev S5000x64 : Shape := ⟨2, ![5000, 64]⟩
abbrev S5000x128 : Shape := ⟨2, ![5000, 128]⟩
abbrev S850000x128 : Shape := ⟨2, ![850000, 128]⟩
abbrev S1x128 : Shape := ⟨2, ![1, 128]⟩
abbrev S850000x64 : Shape := ⟨2, ![850000, 64]⟩
abbrev S1x64 : Shape := ⟨2, ![1, 64]⟩

abbrev nBuf : Space → Nat
  | .hbm => 80
  | .vmem => 20
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S64x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S50000, .i32⟩
  | .hbm, ⟨11, _⟩ => ⟨S850000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .f32⟩
  | .hbm, ⟨22, _⟩ => ⟨S50000, .f32⟩
  | .hbm, ⟨23, _⟩ => ⟨S_, .i32⟩
  | .hbm, ⟨24, _⟩ => ⟨S850000, .i32⟩
  | .hbm, ⟨25, _⟩ => ⟨S850000, .i1⟩
  | .hbm, ⟨26, _⟩ => ⟨S_, .i32⟩
  | .hbm, ⟨27, _⟩ => ⟨S850000, .i32⟩
  | .hbm, ⟨28, _⟩ => ⟨S850000, .i32⟩
  | .hbm, ⟨29, _⟩ => ⟨S850000, .i32⟩
  | .hbm, ⟨30, _⟩ => ⟨S850000x1, .i32⟩
  | .hbm, ⟨31, _⟩ => ⟨S850000, .f32⟩
  | .hbm, ⟨32, _⟩ => ⟨S_, .i32⟩
  | .hbm, ⟨33, _⟩ => ⟨S850000, .i32⟩
  | .hbm, ⟨34, _⟩ => ⟨S850000, .i1⟩
  | .hbm, ⟨35, _⟩ => ⟨S_, .i32⟩
  | .hbm, ⟨36, _⟩ => ⟨S850000, .i32⟩
  | .hbm, ⟨37, _⟩ => ⟨S850000, .i32⟩
  | .hbm, ⟨38, _⟩ => ⟨S850000, .i32⟩
  | .hbm, ⟨39, _⟩ => ⟨S850000x1, .i32⟩
  | .hbm, ⟨40, _⟩ => ⟨S850000, .f32⟩
  | .hbm, ⟨41, _⟩ => ⟨S850000, .f32⟩
  | .hbm, ⟨42, _⟩ => ⟨S50000x128, .f32⟩
  | .hbm, ⟨43, _⟩ => ⟨S850000x1, .f32⟩
  | .hbm, ⟨44, _⟩ => ⟨S_, .i32⟩
  | .hbm, ⟨45, _⟩ => ⟨S850000, .i32⟩
  | .hbm, ⟨46, _⟩ => ⟨S850000, .i1⟩
  | .hbm, ⟨47, _⟩ => ⟨S_, .i32⟩
  | .hbm, ⟨48, _⟩ => ⟨S850000, .i32⟩
  | .hbm, ⟨49, _⟩ => ⟨S850000, .i32⟩
  | .hbm, ⟨50, _⟩ => ⟨S850000, .i32⟩
  | .hbm, ⟨51, _⟩ => ⟨S850000x1, .i32⟩
  | .hbm, ⟨52, _⟩ => ⟨S850000x128, .f32⟩
  | .hbm, ⟨53, _⟩ => ⟨S850000x128, .f32⟩
  | .hbm, ⟨54, _⟩ => ⟨S850000x128, .f32⟩
  | .hbm, ⟨55, _⟩ => ⟨S_, .f32⟩
  | .hbm, ⟨56, _⟩ => ⟨S50000x128, .f32⟩
  | .hbm, ⟨57, _⟩ => ⟨S850000x1, .i32⟩
  | .hbm, ⟨58, _⟩ => ⟨S50000x128, .f32⟩
  | .hbm, ⟨59, _⟩ => ⟨S1x128, .f32⟩
  | .hbm, ⟨60, _⟩ => ⟨S50000x128, .f32⟩
  | .hbm, ⟨61, _⟩ => ⟨S50000x64, .f32⟩
  | .hbm, ⟨62, _⟩ => ⟨S850000x1, .f32⟩
  | .hbm, ⟨63, _⟩ => ⟨S_, .i32⟩
  | .hbm, ⟨64, _⟩ => ⟨S850000, .i32⟩
  | .hbm, ⟨65, _⟩ => ⟨S850000, .i1⟩
  | .hbm, ⟨66, _⟩ => ⟨S_, .i32⟩
  | .hbm, ⟨67, _⟩ => ⟨S850000, .i32⟩
  | .hbm, ⟨68, _⟩ => ⟨S850000, .i32⟩
  | .hbm, ⟨69, _⟩ => ⟨S850000, .i32⟩
  | .hbm, ⟨70, _⟩ => ⟨S850000x1, .i32⟩
  | .hbm, ⟨71, _⟩ => ⟨S850000x64, .f32⟩
  | .hbm, ⟨72, _⟩ => ⟨S850000x64, .f32⟩
  | .hbm, ⟨73, _⟩ => ⟨S850000x64, .f32⟩
  | .hbm, ⟨74, _⟩ => ⟨S_, .f32⟩
  | .hbm, ⟨75, _⟩ => ⟨S50000x64, .f32⟩
  | .hbm, ⟨76, _⟩ => ⟨S850000x1, .i32⟩
  | .hbm, ⟨77, _⟩ => ⟨S50000x64, .f32⟩
  | .hbm, ⟨78, _⟩ => ⟨S1x64, .f32⟩
  | .hbm, ⟨79, _⟩ => ⟨S50000x64, .f32⟩
  | .local _ .vmem, ⟨0, _⟩ => ⟨S5000x64, .f32⟩
  | .local _ .vmem, ⟨1, _⟩ => ⟨S5000x64, .f32⟩
  | .local _ .vmem, ⟨2, _⟩ => ⟨S64x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c : Ref sig .tc := ⟨.hbm, 23, rfl⟩
abbrev main_v14 : Ref sig .tc := ⟨.hbm, 24, rfl⟩
abbrev main_v15 : Ref sig .tc := ⟨.hbm, 25, rfl⟩
abbrev main_c_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_c_5 : Ref sig .tc := ⟨.hbm, 44, rfl⟩
abbrev main_v31 : Ref sig .tc := ⟨.hbm, 45, rfl⟩
abbrev main_v32 : Ref sig .tc := ⟨.hbm, 46, rfl⟩
abbrev main_c_6 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_c_8 : Ref sig .tc := ⟨.hbm, 63, rfl⟩
abbrev main_v47 : Ref sig .tc := ⟨.hbm, 64, rfl⟩
abbrev main_v48 : Ref sig .tc := ⟨.hbm, 65, rfl⟩
abbrev main_c_9 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_cst_10 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S5000x128_S5000x128_0_0 : ∀ a, (![0, 0] : Fin 2 → Nat) a + S5000x128.size a ≤ S5000x128.size a
  h_S5000x128 : 0 < S5000x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x64_S64x128_S5000x128_1_0_0_1_n_n_wf : DotDims.WF S5000x64 S64x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x64_S5000x64_1_0_0_1_n_n_wf : DotDims.WF S5000x128 S128x64 S5000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S50000x64.size a
  hwx2_2 : ∀ i : grid2.Coords, EltTy.bits .f32 = 32 ∨ (Rect.block (s := S50000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S50000x64.size a
  hwx3_2 : ∀ i : grid3.Coords, EltTy.bits .f32 = 32 ∨ (Rect.block (s := S50000x64) S5000x64.size (cc3_transform_2 i) (hinb3_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v42) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v44) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v44) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v45) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v58) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v59) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v60) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S50000x128 : Shape := ⟨2, ![50000, 128]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S850000x64 : Shape := ⟨2, ![850000, 64]⟩
abbrev S1x64 : Shape := ⟨2, ![1, 64]⟩

abbrev nBuf : Space → Nat
  | .hbm => 117
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S64x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S50000x128, .f32⟩
  | .hbm, ⟨11, _⟩ => ⟨S50000, .i32⟩
  | .hbm, ⟨12, _⟩ => ⟨S850000, .i32⟩
  | .hbm, ⟨13, _⟩ => ⟨S850000, .i32⟩
  | .hbm, ⟨14, _⟩ => ⟨S_, .f32⟩
  | .hbm, ⟨15, _⟩ => ⟨S850000, .f32⟩
  | .hbm, ⟨16, _⟩ => ⟨S_, .f32⟩
  | .hbm, ⟨17, _⟩ => ⟨S50000, .f32⟩
  | .hbm, ⟨18, _⟩ => ⟨S850000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S50000, .f32⟩
  | .hbm, ⟨24, _⟩ => ⟨S_, .i32⟩
  | .hbm, ⟨25, _⟩ => ⟨S850000, .i32⟩
  | .hbm, ⟨26, _⟩ => ⟨S850000, .i1⟩
  | .hbm, ⟨27, _⟩ => ⟨S_, .i32⟩
  | .hbm, ⟨28, _⟩ => ⟨S850000, .i32⟩
  | .hbm, ⟨29, _⟩ => ⟨S850000, .i32⟩
  | .hbm, ⟨30, _⟩ => ⟨S850000, .i32⟩
  | .hbm, ⟨31, _⟩ => ⟨S850000x1, .i32⟩
  | .hbm, ⟨32, _⟩ => ⟨S850000, .f32⟩
  | .hbm, ⟨33, _⟩ => ⟨S_, .i32⟩
  | .hbm, ⟨34, _⟩ => ⟨S850000, .i32⟩
  | .hbm, ⟨35, _⟩ => ⟨S850000, .i1⟩
  | .hbm, ⟨36, _⟩ => ⟨S_, .i32⟩
  | .hbm, ⟨37, _⟩ => ⟨S850000, .i32⟩
  | .hbm, ⟨38, _⟩ => ⟨S850000, .i32⟩
  | .hbm, ⟨39, _⟩ => ⟨S850000, .i32⟩
  | .hbm, ⟨40, _⟩ => ⟨S850000x1, .i32⟩
  | .hbm, ⟨41, _⟩ => ⟨S850000, .f32⟩
  | .hbm, ⟨42, _⟩ => ⟨S850000, .f32⟩
  | .hbm, ⟨43, _⟩ => ⟨S850000x1, .f32⟩
  | .hbm, ⟨44, _⟩ => ⟨S_, .i32⟩
  | .hbm, ⟨45, _⟩ => ⟨S850000, .i32⟩
  | .hbm, ⟨46, _⟩ => ⟨S850000, .i1⟩
  | .hbm, ⟨47, _⟩ => ⟨S_, .i32⟩
  | .hbm, ⟨48, _⟩ => ⟨S850000, .i32⟩
  | .hbm, ⟨49, _⟩ => ⟨S850000, .i32⟩
  | .hbm, ⟨50, _⟩ => ⟨S850000, .i32⟩
  | .hbm, ⟨51, _⟩ => ⟨S850000x1, .i32⟩
  | .hbm, ⟨52, _⟩ => ⟨S850000x128, .f32⟩
  | .hbm, ⟨53, _⟩ => ⟨S850000x128, .f32⟩
  | .hbm, ⟨54, _⟩ => ⟨S850000x128, .f32⟩
  | .hbm, ⟨55, _⟩ => ⟨S_, .f32⟩
  | .hbm, ⟨56, _⟩ => ⟨S50000x128, .f32⟩
  | .hbm, ⟨57, _⟩ => ⟨S850000x1, .i32⟩
  | .hbm, ⟨58, _⟩ => ⟨S50000x128, .f32⟩
  | .hbm, ⟨59, _⟩ => ⟨S1x128, .f32⟩
  | .hbm, ⟨60, _⟩ => ⟨S50000x128, .f32⟩
  | .hbm, ⟨61, _⟩ => ⟨S50000x128, .f32⟩
  | .hbm, ⟨62, _⟩ => ⟨S_, .f32⟩
  | .hbm, ⟨63, _⟩ => ⟨S50000x128, .f32⟩
  | .hbm, ⟨64, _⟩ => ⟨S50000x128, .f32⟩
  | .hbm, ⟨65, _⟩ => ⟨S50000x64, .f32⟩
  | .hbm, ⟨66, _⟩ => ⟨S50000, .i32⟩
  | .hbm, ⟨67, _⟩ => ⟨S850000, .i32⟩
  | .hbm, ⟨68, _⟩ => ⟨S850000, .i32⟩
  | .hbm, ⟨69, _⟩ => ⟨S_, .f32⟩
  | .hbm, ⟨70, _⟩ => ⟨S850000, .f32⟩
  | .hbm, ⟨71, _⟩ => ⟨S_, .f32⟩
  | .hbm, ⟨72, _⟩ => ⟨S50000, .f32⟩
  | .hbm, ⟨73, _⟩ => ⟨S850000x1, .i32⟩
  | .hbm, ⟨74, _⟩ => ⟨S50000, .f32⟩
  | .hbm, ⟨75, _⟩ => ⟨S_, .f32⟩
  | .hbm, ⟨76, _⟩ => ⟨S50000, .f32⟩
  | .hbm, ⟨77, _⟩ => ⟨S50000, .f32⟩
  | .hbm, ⟨78, _⟩ => ⟨S50000, .f32⟩
  | .hbm, ⟨79, _⟩ => ⟨S_, .i32⟩
  | .hbm, ⟨80, _⟩ => ⟨S850000, .i32⟩
  | .hbm, ⟨81, _⟩ => ⟨S850000, .i1⟩
  | .hbm, ⟨82, _⟩ => ⟨S_, .i32⟩
  | .hbm, ⟨83, _⟩ => ⟨S850000, .i32⟩
  | .hbm, ⟨84, _⟩ => ⟨S850000, .i32⟩
  | .hbm, ⟨85, _⟩ => ⟨S850000, .i32⟩
  | .hbm, ⟨86, _⟩ => ⟨S850000x1, .i32⟩
  | .hbm, ⟨87, _⟩ => ⟨S850000, .f32⟩
  | .hbm, ⟨88, _⟩ => ⟨S_, .i32⟩
  | .hbm, ⟨89, _⟩ => ⟨S850000, .i32⟩
  | .hbm, ⟨90, _⟩ => ⟨S850000, .i1⟩
  | .hbm, ⟨91, _⟩ => ⟨S_, .i32⟩
  | .hbm, ⟨92, _⟩ => ⟨S850000, .i32⟩
  | .hbm, ⟨93, _⟩ => ⟨S850000, .i32⟩
  | .hbm, ⟨94, _⟩ => ⟨S850000, .i32⟩
  | .hbm, ⟨95, _⟩ => ⟨S850000x1, .i32⟩
  | .hbm, ⟨96, _⟩ => ⟨S850000, .f32⟩
  | .hbm, ⟨97, _⟩ => ⟨S850000, .f32⟩
  | .hbm, ⟨98, _⟩ => ⟨S850000x1, .f32⟩
  | .hbm, ⟨99, _⟩ => ⟨S_, .i32⟩
  | .hbm, ⟨100, _⟩ => ⟨S850000, .i32⟩
  | .hbm, ⟨101, _⟩ => ⟨S850000, .i1⟩
  | .hbm, ⟨102, _⟩ => ⟨S_, .i32⟩
  | .hbm, ⟨103, _⟩ => ⟨S850000, .i32⟩
  | .hbm, ⟨104, _⟩ => ⟨S850000, .i32⟩
  | .hbm, ⟨105, _⟩ => ⟨S850000, .i32⟩
  | .hbm, ⟨106, _⟩ => ⟨S850000x1, .i32⟩
  | .hbm, ⟨107, _⟩ => ⟨S850000x64, .f32⟩
  | .hbm, ⟨108, _⟩ => ⟨S850000x64, .f32⟩
  | .hbm, ⟨109, _⟩ => ⟨S850000x64, .f32⟩
  | .hbm, ⟨110, _⟩ => ⟨S_, .f32⟩
  | .hbm, ⟨111, _⟩ => ⟨S50000x64, .f32⟩
  | .hbm, ⟨112, _⟩ => ⟨S850000x1, .i32⟩
  | .hbm, ⟨113, _⟩ => ⟨S50000x64, .f32⟩
  | .hbm, ⟨114, _⟩ => ⟨S1x64, .f32⟩
  | .hbm, ⟨115, _⟩ => ⟨S50000x64, .f32⟩
  | .hbm, ⟨116, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c : Ref sig .tc := ⟨.hbm, 24, rfl⟩
abbrev main_v15 : Ref sig .tc := ⟨.hbm, 25, rfl⟩
abbrev main_v16 : Ref sig .tc := ⟨.hbm, 26, rfl⟩
abbrev main_c_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c_3 : Ref sig .tc := ⟨.hbm, 33, rfl⟩
abbrev main_v22 : Ref sig .tc := ⟨.hbm, 34, rfl⟩
abbrev main_v23 : Ref sig .tc := ⟨.hbm, 35, rfl⟩
abbrev main_c_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_c_5 : Ref sig .tc := ⟨.hbm, 44, rfl⟩
abbrev main_v31 : Ref sig .tc := ⟨.hbm, 45, rfl⟩
abbrev main_v32 : Ref sig .tc := ⟨.hbm, 46, rfl⟩
abbrev main_c_6 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_call0_cst : Ref sig .tc := ⟨.hbm, 62, rfl⟩
abbrev main_call0_v0 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_8 : Ref sig .tc := ⟨.hbm, 69, rfl⟩
abbrev main_v51 : Ref sig .tc := ⟨.hbm, 70, rfl⟩
abbrev main_cst_9 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_10 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_c_11 : Ref sig .tc := ⟨.hbm, 79, rfl⟩
abbrev main_v58 : Ref sig .tc := ⟨.hbm, 80, rfl⟩
abbrev main_v59 : Ref sig .tc := ⟨.hbm, 81, rfl⟩
abbrev main_c_12 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_c_13 : Ref sig .tc := ⟨.hbm, 88, rfl⟩
abbrev main_v65 : Ref sig .tc := ⟨.hbm, 89, rfl⟩
abbrev main_v66 : Ref sig .tc := ⟨.hbm, 90, rfl⟩
abbrev main_c_14 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_c_15 : Ref sig .tc := ⟨.hbm, 99, rfl⟩
abbrev main_v74 : Ref sig .tc := ⟨.hbm, 100, rfl⟩
abbrev main_v75 : Ref sig .tc := ⟨.hbm, 101, rfl⟩
abbrev main_c_16 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_cst_17 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  dot_S50000x64_S64x128_S50000x128_1_0_0_1_n_n_wf : DotDims.WF S50000x64 S64x128 S50000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1

variable [Facts₀]

def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

class Facts : Prop extends Facts₀ where

variable [Facts]
-- ==== Proof.Spec.lean ====
/-
  The dense stages of the two-layer graph convolution, each as ONE whole-array function over the extended reals.

  A layer is  out = A · (X · W) + b  with A the normalised adjacency (self loops added): the sparse product with A is a
  gather along the sources, a scaling by the edge norms and a scatter-add at the destinations, and is the SAME chain of
  host operations in the kernel's program and in the reference. What differs is only how the dense stages are computed:
  the kernel tiles the 50000 rows in ten blocks of 5000 and runs the products on the matrix unit after a change of
  float format (the identity on the extended reals), the reference uses one `dot_general` and whole-array adds.
  The four functions below are what either side computes for those stages, entry by entry:
    `lin1 x w`      (X · W₁)[r, c]     = Σ_{k < 64}  x[r, k] · w[k, c]
    `lin2 h w`      (H · W₂)[r, c]     = Σ_{k < 128} h[r, k] · w[k, c]
    `biasRelu a b`  max(a[r, c] + b[0, c], 0)      (b a [1, 128] row)
    `biasAdd a b`   a[r, c] + b[0, c]              (b a [1, 64] row)
-/
import Idealize.ShloMosaic.Lib.ValueIdx

noncomputable section

open scoped BigOperators

namespace Cert.Spec

open Idealize.ShloMosaic Idealize.ShloMosaic.ValueIdx

/-- Node features with 64 channels (the input, and the second layer's output). -/
abbrev Nodes64 : Shape := ⟨2, ![50000, 64]⟩
/-- Node features with 128 channels (the hidden layer). -/
abbrev Nodes128 : Shape := ⟨2, ![50000, 128]⟩
/-- The first layer's weights. -/
abbrev W64x128 : Shape := ⟨2, ![64, 128]⟩
/-- The second layer's weights. -/
abbrev W128x64 : Shape := ⟨2, ![128, 64]⟩
/-- A bias of 128 channels laid out as one row. -/
abbrev Row128 : Shape := ⟨2, ![1, 128]⟩
/-- A bias of 64 channels laid out as one row. -/
abbrev Row64 : Shape := ⟨2, ![1, 64]⟩

/-- Entry (r, k) of a 64-channel node array, `r` the row of an index of a 128-channel one. -/
abbrev x64At (i : Nodes128.Idx) (k : Fin 64) : Nodes64.Idx := ix2 (n0 := 50000) (n1 := 64) ⟨(i 0).val, (i 0).isLt⟩ k
/-- Entry (k, c) of the first weights, `c` the column of an index of a 128-channel node array. -/
abbrev w1At (i : Nodes128.Idx) (k : Fin 64) : W64x128.Idx := ix2 (n0 := 64) (n1 := 128) k ⟨(i 1).val, (i 1).isLt⟩
/-- Entry (r, k) of a 128-channel node array, `r` the row of an index of a 64-channel one. -/
abbrev h128At (i : Nodes64.Idx) (k : Fin 128) : Nodes128.Idx := ix2 (n0 := 50000) (n1 := 128) ⟨(i 0).val, (i 0).isLt⟩ k
/-- Entry (k, c) of the second weights, `c` the column of an index of a 64-channel node array. -/
abbrev w2At (i : Nodes64.Idx) (k : Fin 128) : W128x64.Idx := ix2 (n0 := 128) (n1 := 64) k ⟨(i 1).val, (i 1).isLt⟩
/-- Entry (0, c) of a 128-channel bias row. -/
abbrev b128At (i : Nodes128.Idx) : Row128.Idx := ix2 (n0 := 1) (n1 := 128) ⟨0, Nat.one_pos⟩ ⟨(i 1).val, (i 1).isLt⟩
/-- Entry (0, c) of a 64-channel bias row. -/
abbrev b64At (i : Nodes64.Idx) : Row64.Idx := ix2 (n0 := 1) (n1 := 64) ⟨0, Nat.one_pos⟩ ⟨(i 1).val, (i 1).isLt⟩

/-- The first layer's linear map: (X · W₁)[r, c] = Σ_k x[r, k] · w[k, c]. -/
def lin1 (x : Nodes64.Idx → EReal) (w : W64x128.Idx → EReal) : Nodes128.Idx → EReal :=
  fun i => ∑ k : Fin 64, x (x64At i k) * w (w1At i k)

/-- The second layer's linear map: (H · W₂)[r, c] = Σ_k h[r, k] · w[k, c]. -/
def lin2 (h : Nodes128.Idx → EReal) (w : W128x64.Idx → EReal) : Nodes64.Idx → EReal :=
  fun i => ∑ k : Fin 128, h (h128At i k) * w (w2At i k)

/-- The first layer's bias and rectifier: max(a[r, c] + b[0, c], 0), the zero kept as the f32 zero word read at the
    extended reals (the same word on both sides). -/
def biasRelu (a : Nodes128.Idx → EReal) (b : Row128.Idx → EReal) : Nodes128.Idx → EReal :=
  fun i => max (a i + b (b128At i)) (Ideal.ofBits .f32 0x00000000#32)

/-- The second layer's bias: a[r, c] + b[0, c]. -/
def biasAdd (a : Nodes64.Idx → EReal) (b : Row64.Idx → EReal) : Nodes64.Idx → EReal :=
  fun i => a i + b (b64At i)

end Cert.Spec

end
-- ==== Proof.RefSpec.lean ====
/-
  The reference's dense stages are the whole-array functions of `Cert.Spec`: its two `dot_general`s are the two linear
  maps, its broadcast-add-maximum chain the first layer's bias and rectifier, its last broadcast-add the second layer's bias.
-/
import proofs.«148890_j36051955482714_1_alg».proof.Proof.Gen.ReferenceIdeal.Read
import proofs.«148890_j36051955482714_1_alg».proof.Proof.Spec
import Idealize.ShloMosaic.Lib.Pipeline.Value
import Idealize.ShloMosaic.Lib.ValueIdx
import Idealize.ShloMosaic.PureOps.Ideal.Laws

noncomputable section

open scoped BigOperators

namespace Cert.ReferenceIdeal.RefSpec

open Idealize.ShloMosaic Idealize.ShloMosaic.TcCoe Idealize.ShloMosaic.ValueIdx Idealize.SL.Sem
open Cert.ReferenceIdeal Cert.ReferenceIdeal.Read

/-! ## The reference's index functions are the specification's

Each of the reference's composed index functions picks the same two coordinates as the specification's: both are a case
split on the axis, so they agree axis by axis. -/

/-- The left operand of the first product is read at row `r`, column `k`. -/
theorem lidx_v4_eq (i : S50000x128.Idx) (k : Fin 64) : lidx_main_v4 i k = Cert.Spec.x64At i k :=
  funext fun a => Fin.ext (by match a with | ⟨0, _⟩ => rfl | ⟨1, _⟩ => rfl)

/-- The right operand of the first product is read at row `k`, column `c`. -/
theorem ridx_v4_eq (i : S50000x128.Idx) (k : Fin 64) : ridx_main_v4 i k = Cert.Spec.w1At i k :=
  funext fun a => Fin.ext (by match a with | ⟨0, _⟩ => rfl | ⟨1, _⟩ => rfl)

/-- The left operand of the second product is read at row `r`, column `k`. -/
theorem lidx_v47_eq (i : S50000x64.Idx) (k : Fin 128) : lidx_main_v47 i k = Cert.Spec.h128At i k :=
  funext fun a => Fin.ext (by match a with | ⟨0, _⟩ => rfl | ⟨1, _⟩ => rfl)

/-- The right operand of the second product is read at row `k`, column `c`. -/
theorem ridx_v47_eq (i : S50000x64.Idx) (k : Fin 128) : ridx_main_v47 i k = Cert.Spec.w2At i k :=
  funext fun a => Fin.ext (by match a with | ⟨0, _⟩ => rfl | ⟨1, _⟩ => rfl)

/-- The broadcast of the 128-channel bias row reads it at row 0, column `c`. -/
theorem idx_v44_eq (i : S50000x128.Idx) : idx_main_v44 i = Cert.Spec.b128At i :=
  funext fun a => Fin.ext (by match a with | ⟨0, _⟩ => rfl | ⟨1, _⟩ => rfl)

/-- The broadcast of the 64-channel bias row reads it at row 0, column `c`. -/
theorem idx_v87_eq (i : S50000x64.Idx) : idx_main_v87 i = Cert.Spec.b64At i :=
  funext fun a => Fin.ext (by match a with | ⟨0, _⟩ => rfl | ⟨1, _⟩ => rfl)

/-! ## The four dense stages -/

/-- The reference's first `dot_general` is X · W₁. -/
theorem lin1_eq (x0 : (⟨S50000x64, .f32⟩ : BufTy).Contents (Elt Ideal)) (x2 : (⟨S64x128, .f32⟩ : BufTy).Contents (Elt Ideal)) :
    val_main_v4 (F := Ideal) x0 x2 = Cert.Spec.lin1 x0 x2 := by
  funext i
  rw [val_main_v4_apply]
  unfold Cert.Spec.lin1
  exact Finset.sum_congr rfl fun k _ => by rw [lidx_v4_eq, ridx_v4_eq]

/-- The reference's hidden layer is max(agg + b₁, 0) of its aggregated first product and its bias row. -/
theorem hidden_eq (x0 : (⟨S50000x64, .f32⟩ : BufTy).Contents (Elt Ideal)) (x1 : (⟨S2x800000, .i32⟩ : BufTy).Contents (Elt Ideal))
    (x2 : (⟨S64x128, .f32⟩ : BufTy).Contents (Elt Ideal)) (x3 : (⟨S128, .f32⟩ : BufTy).Contents (Elt Ideal)) :
    val_main_v46 (F := Ideal) x0 x1 x2 x3
      = Cert.Spec.biasRelu (val_main_v42 (F := Ideal) x0 x1 x2) (val_main_v43 (F := Ideal) x3) := by
  funext i
  rw [val_main_v46_apply, val_main_v45_apply, val_main_v44_apply, val_main_call0_v0_apply, val_main_call0_cst_apply,
    idx_v44_eq]
  rfl

/-- The reference's second `dot_general` is H · W₂ of its hidden layer. -/
theorem lin2_eq (x0 : (⟨S50000x64, .f32⟩ : BufTy).Contents (Elt Ideal)) (x1 : (⟨S2x800000, .i32⟩ : BufTy).Contents (Elt Ideal))
    (x2 : (⟨S64x128, .f32⟩ : BufTy).Contents (Elt Ideal)) (x3 : (⟨S128, .f32⟩ : BufTy).Contents (Elt Ideal))
    (x4 : (⟨S128x64, .f32⟩ : BufTy).Contents (Elt Ideal)) :
    val_main_v47 (F := Ideal) x0 x1 x2 x3 x4 = Cert.Spec.lin2 (val_main_v46 (F := Ideal) x0 x1 x2 x3) x4 := by
  funext i
  rw [val_main_v47_apply]
  generalize val_main_v46 (F := Ideal) x0 x1 x2 x3 = h
  unfold Cert.Spec.lin2
  exact Finset.sum_congr rfl fun k _ => by rw [lidx_v47_eq, ridx_v47_eq]

/-- The reference's result is agg + b₂ of its aggregated second product and its bias row. -/
theorem out_eq (x0 : (⟨S50000x64, .f32⟩ : BufTy).Contents (Elt Ideal)) (x1 : (⟨S2x800000, .i32⟩ : BufTy).Contents (Elt Ideal))
    (x2 : (⟨S64x128, .f32⟩ : BufTy).Contents (Elt Ideal)) (x3 : (⟨S128, .f32⟩ : BufTy).Contents (Elt Ideal))
    (x4 : (⟨S128x64, .f32⟩ : BufTy).Contents (Elt Ideal)) (x5 : (⟨S64, .f32⟩ : BufTy).Contents (Elt Ideal)) :
    val_main_v88 (F := Ideal) x0 x1 x2 x3 x4 x5
      = Cert.Spec.biasAdd (val_main_v85 (F := Ideal) x0 x1 x2 x3 x4) (val_main_v86 (F := Ideal) x5) := by
  funext i
  rw [val_main_v88_apply, val_main_v87_apply, idx_v87_eq]
  rfl

end Cert.ReferenceIdeal.RefSpec

end
-- ==== Proof.Region0.lean ====
/-
  Region 0: the first linear map, ten row blocks of 5000.

  Each grid point t multiplies rows 5000·t … 5000·t + 4999 of X (a [5000, 64] block) by the whole of W₁ ([64, 128]) on the
  matrix unit, after a change of float format that is the identity on the extended reals, into a zero accumulator, and
  writes the [5000, 128] result back as block t of the product's array. Entry (p, q) of a block product is
  Σ_k x[p, k] · w[k, q]; row p of block t is row 5000·t + p of the array; the ten blocks tile the 50000 rows. So the array
  ends holding X · W₁.
-/
import proofs.«148890_j36051955482714_1_alg».proof.Proof.Gen.KernelIdeal.Frame
import proofs.«148890_j36051955482714_1_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Region0

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

/-- The body's one load and one store each start at the origin of their buffer. -/
theorem hz : (![0, 0] : Fin 2 → Nat) = fun _ => 0 := funext fun a => by fin_cases a <;> rfl

/-! ## The product of two blocks, entry by entry -/

/-- The left operand is read on the output's row … -/
theorem lhs_row (i : S5000x128.Idx) (q : dot_S5000x64_S64x128_S5000x128_1_0_0_1_n_n.contr.Idx) :
    (dot_S5000x64_S64x128_S5000x128_1_0_0_1_n_n.lhsIdx i q 0).val = (i 0).val := by
  unfold DotDims.lhsIdx
  rw [dif_neg (show ¬(0 : Fin S5000x64.rank) ∈ dot_S5000x64_S64x128_S5000x128_1_0_0_1_n_n.lhsBatch by decide), dif_pos (show (0 : Fin S5000x64.rank) ∈ dot_S5000x64_S64x128_S5000x128_1_0_0_1_n_n.lhsNonContracting by decide)]
  rfl
/-- … at the contracted channel; -/
theorem lhs_chan (i : S5000x128.Idx) (q : dot_S5000x64_S64x128_S5000x128_1_0_0_1_n_n.contr.Idx) :
    (dot_S5000x64_S64x128_S5000x128_1_0_0_1_n_n.lhsIdx i q 1).val = (q ⟨0, by decide⟩).val :=
  dot_S5000x64_S64x128_S5000x128_1_0_0_1_n_n.lhsIdx_val_of_single rfl i q
/-- the right operand at the contracted channel … -/
theorem rhs_chan (i : S5000x128.Idx) (q : dot_S5000x64_S64x128_S5000x128_1_0_0_1_n_n.contr.Idx) :
    (dot_S5000x64_S64x128_S5000x128_1_0_0_1_n_n.rhsIdx i q 0).val = (q ⟨0, by decide⟩).val :=
  dot_S5000x64_S64x128_S5000x128_1_0_0_1_n_n.rhsIdx_val_of_single rfl i q
/-- … on the output's column. -/
theorem rhs_col (i : S5000x128.Idx) (q : dot_S5000x64_S64x128_S5000x128_1_0_0_1_n_n.contr.Idx) :
    (dot_S5000x64_S64x128_S5000x128_1_0_0_1_n_n.rhsIdx i q 1).val = (i 1).val := by
  unfold DotDims.rhsIdx
  rw [dif_neg (show ¬(1 : Fin S64x128.rank) ∈ dot_S5000x64_S64x128_S5000x128_1_0_0_1_n_n.rhsBatch by decide), dif_pos (show (1 : Fin S64x128.rank) ∈ dot_S5000x64_S64x128_S5000x128_1_0_0_1_n_n.rhsNonContracting by decide)]
  rfl

/-- Entry (p, q) of what the body stores: Σ_k x[p, k] · w[k, q] of the two loaded blocks (the format change is the
    identity, the accumulator starts at zero, the contraction runs over the 64 input channels). -/
theorem blockProduct_apply (x0 : Vec Ideal S5000x64 .f32) (x1 : Vec Ideal S64x128 .f32) (p : Fin 5000) (q : Fin 128) :
    k0_pay1 x0 x1 (ix2 p q) = ∑ k : Fin 64, x0 (ix2 p k) * x1 (ix2 k q) := by
  unfold k0_pay1
  simp only [matmul]
  rw [Ideal.matmul_constant_zero_apply, ← Equiv.sum_comp (ValueIdx.contrEquiv1 dot_S5000x64_S64x128_S5000x128_1_0_0_1_n_n 64 rfl rfl).symm]
  refine Finset.sum_congr rfl fun k _ => ?_
  have hk := ValueIdx.contrEquiv1_symm_val dot_S5000x64_S64x128_S5000x128_1_0_0_1_n_n 64 rfl rfl k
  have el : dot_S5000x64_S64x128_S5000x128_1_0_0_1_n_n.lhsIdx (ix2 p q) ((ValueIdx.contrEquiv1 dot_S5000x64_S64x128_S5000x128_1_0_0_1_n_n 64 rfl rfl).symm k) = ix2 p k := funext fun a => Fin.ext (by
    match a with
    | ⟨0, _⟩ => exact lhs_row _ _
    | ⟨1, _⟩ => exact (lhs_chan _ _).trans hk)
  have er : dot_S5000x64_S64x128_S5000x128_1_0_0_1_n_n.rhsIdx (ix2 p q) ((ValueIdx.contrEquiv1 dot_S5000x64_S64x128_S5000x128_1_0_0_1_n_n 64 rfl rfl).symm k) = ix2 k q := funext fun a => Fin.ext (by
    match a with
    | ⟨0, _⟩ => exact (rhs_chan _ _).trans hk
    | ⟨1, _⟩ => exact rhs_col _ _)
  rw [el, er]
  rfl

/-! ## Where the blocks lie -/

/-- The windows' index maps, decided over the ten grid points: the rows' block and the product's block move with the
    point, the weights' block is the whole array. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- WHAT POINT `t` WRITES BACK is block `t` of X · W₁ of the arrays the region found. -/
theorem flushed_eq (c : Dev nD) (t : Fin cfg0.N) :
    (dat0 (F := Ideal) V c).flushed 2 t = ((cfg0.win 2).blk t).view.read (Elt Ideal) (Cert.Spec.lin1 (V c main_arg0) (V c main_arg2)) := by
  show (cfg0.win 2).cut (grid0.coords t) ((dat0 (F := Ideal) V c).after 2 t) = _
  rw [after0_2]
  unfold out0_2
  rw [View.canon_unit_zero hz]
  simp only [View.ld_unit_zero (S := S5000x64) hz, View.ld_unit_zero (S := S64x128) hz]
  obtain ⟨e0, e1, e2, e3, e4, e5⟩ := idx_facts t
  funext j
  show k0_pay1 (iblk0 V c 0 t) (iblk0 V c 1 t) j = Cert.Spec.lin1 (V c main_arg0) (V c main_arg2) (((cfg0.win 2).blk t).view.emb j)
  have hj : j = ix2 (n0 := 5000) (n1 := 128) (j 0) (j 1) := eq_ix2 j
  have hj0 : (j 0).val < 5000 := (j 0).isLt
  have hj1 : (j 1).val < 128 := (j 1).isLt
  refine (congrArg (k0_pay1 (iblk0 V c 0 t) (iblk0 V c 1 t)) hj).trans ?_
  refine (blockProduct_apply (iblk0 V c 0 t) (iblk0 V c 1 t) (j 0) (j 1)).trans ?_
  unfold Cert.Spec.lin1
  refine Finset.sum_congr rfl fun k _ => ?_
  -- the row block of X at (p, k) is X at (5000·t + p, k)
  have hx : ((cfg0.win 0).blk t).view.emb (ix2 (n0 := 5000) (n1 := 64) (j 0) k) = Cert.Spec.x64At (((cfg0.win 2).blk t).view.emb j) k := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 64 + 1 * k.val = k.val; omega
  -- the weights' block at (k, q) is W₁ at (k, q)
  have hw : ((cfg0.win 1).blk t).view.emb (ix2 (n0 := 64) (n1 := 128) k (j 1)) = Cert.Spec.w1At (((cfg0.win 2).blk t).view.emb j) k := by
    funext a; apply Fin.ext
    match a with
    | ⟨0, _⟩ => show win0_1.index t (0 : Fin 2) * 64 + 1 * k.val = k.val; omega
    | ⟨1, _⟩ => show win0_1.index t (1 : Fin 2) * 128 + 1 * (j 1).val = win0_2.index t (1 : Fin 2) * 128 + 1 * (j 1).val; omega
  exact congrArg₂ (fun a b : EReal => a * b) (congrArg (V c main_arg0) hx) (congrArg (V c main_arg2) hw)

/-! ## The ten blocks tile the array -/

/-- An index of the product's array is in point `t`'s block iff each coordinate is in the block's range on its axis. -/
theorem mem_blk (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v29).slice (win0_2.rect t)).set ↔ _
  rw [View.set_slice_whole, Rect.mem_set_unit]
  exact Iff.rfl

/-- Row `r` lies in the block of point `r / 5000`, and every point writes its block back. -/
theorem cover (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have ht : (i 0).val / 5000 < 10 := by omega
  obtain ⟨e0, e1, e2, e3, e4, e5⟩ := idx_facts ⟨(i 0).val / 5000, ht⟩
  have e4' : win0_2.index ⟨(i 0).val / 5000, ht⟩ (0 : Fin 2) = (i 0).val / 5000 := e4
  refine ⟨⟨(i 0).val / 5000, ht⟩, flush0_2 _, ?_⟩
  rw [mem_blk]
  intro a
  match a with
  | ⟨0, _⟩ => show win0_2.index ⟨(i 0).val / 5000, ht⟩ (0 : Fin 2) * 5000 ≤ (i 0).val ∧ (i 0).val < win0_2.index ⟨(i 0).val / 5000, ht⟩ (0 : Fin 2) * 5000 + 5000; omega
  | ⟨1, _⟩ => show win0_2.index ⟨(i 0).val / 5000, ht⟩ (1 : Fin 2) * 128 ≤ (i 1).val ∧ (i 1).val < win0_2.index ⟨(i 0).val / 5000, ht⟩ (1 : Fin 2) * 128 + 128; omega

/-- After the ten row blocks have been written back, the first product's array holds X · W₁ of the arrays the region
    found. -/
theorem final (c : Dev nD) :
    (dat0 (F := Ideal) V c).arrAt 2 cfg0.N = Cert.Spec.lin1 (V c main_arg0) (V c main_arg2) :=
  (dat0 (F := Ideal) V c).arrAt_eq_of_cover 2 _ (fun t _ => flushed_eq V c t) cover

end Cert.KernelIdeal.Region0

end
-- ==== Proof.Region1.lean ====
/-
  Region 1: bias and rectifier of the first layer, ten row blocks of 5000.
-/
import proofs.«148890_j36051955482714_1_alg».proof.Proof.Gen.KernelIdeal.Frame
import proofs.«148890_j36051955482714_1_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Region1

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

/-- The zero offsets of the body's loads and of its one store, as the constant function. -/
theorem hz : (![0, 0] : Fin 2 → Nat) = fun _ => 0 := funext fun a => by fin_cases a <;> rfl

/-- The body's value at entry (p, q) of its block: the aggregate's entry plus the bias of column q, cut below at zero. -/
theorem pay_apply (x0 : Vec Ideal S5000x128 .f32) (x1 : Vec Ideal S1x128 .f32) (p : Fin 5000) (q : Fin 128) :
    k1_pay1 x0 x1 (ix2 p q)
      = max (x0 (ix2 p q) + x1 (ix2 (n0 := 1) (n1 := 128) ⟨0, Nat.one_pos⟩ q)) (Ideal.ofBits .f32 0x00000000#32) := by
  unfold k1_pay1
  rw [maximumf_apply, addf_apply, broadcast_apply, shapeCast_self, shapeCast_self]
  have hb : broadcastTo S5000x128 x1 broadcasts_S1x128_S5000x128 (ix2 p q)
      = x1 (ix2 (n0 := 1) (n1 := 128) ⟨0, Nat.one_pos⟩ q) :=
    broadcastTo_apply x1 _ _ _ fun a => by
      match a with
      | ⟨0, _⟩ => rfl
      | ⟨1, _⟩ => rfl
  rw [hb]
  rfl

/-- The same entry against whole arrays: when the block's entry is entry `i` of an array `a` and the bias row's entry of
    that column is the row `b`'s, the body's value there is the first layer's bias and rectifier of `a` and `b` at `i`. -/
theorem pay_entry (x0 : Vec Ideal S5000x128 .f32) (x1 : Vec Ideal S1x128 .f32)
    (a : Cert.Spec.Nodes128.Idx → EReal) (b : Cert.Spec.Row128.Idx → EReal) (j : S5000x128.Idx) (i : Cert.Spec.Nodes128.Idx)
    (h0 : x0 j = a i)
    (h1 : x1 (ix2 (n0 := 1) (n1 := 128) ⟨0, Nat.one_pos⟩ (j 1)) = b (Cert.Spec.b128At i)) :
    k1_pay1 x0 x1 j = Cert.Spec.biasRelu a b i := by
  refine (congrArg (k1_pay1 x0 x1) (eq_ix2 j)).trans ((pay_apply x0 x1 (j 0) (j 1)).trans ?_)
  show max (x0 (ix2 (j 0) (j 1)) + x1 _) _ = max (a i + b (Cert.Spec.b128At i)) _
  exact congrArg₂ max (congrArg₂ (· + ·) ((congrArg x0 (eq_ix2 j).symm).trans h0) h1) rfl

/-- The printed index maps over the ten points: the aggregate's and the result's row block is the point's own, in the
    one column block; the bias row is always its one block. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of max(agg + b₁, 0) of the arrays the region found. -/
theorem flushed_eq (c : Dev nD) (t : Fin cfg1.N) :
    (dat1 (F := Ideal) V c).flushed 2 t
      = ((cfg1.win 2).blk t).view.read (Elt Ideal) (Cert.Spec.biasRelu (V c main_v42) (V c main_v43)) := by
  show (cfg1.win 2).cut (grid1.coords t) ((dat1 V c).after 2 t) = _
  rw [after1_2]
  unfold out1_2
  rw [View.canon_unit_zero hz]
  simp only [View.ld_unit_zero (S := S5000x128) hz, View.ld_unit_zero (S := S1x128) hz]
  obtain ⟨e00, e01, e10, e11, e20, e21⟩ := idx_facts t
  funext j
  show k1_pay1 (iblk1 V c 0 t) (iblk1 V c 1 t) j
    = Cert.Spec.biasRelu (V c main_v42) (V c main_v43) (((cfg1.win 2).blk t).view.emb j)
  refine pay_entry _ _ _ _ j _ ?_ ?_
  · -- the aggregate's block is read where the result's block lies
    show V c main_v42 (((cfg1.win 0).blk t).view.emb j) = V c main_v42 (((cfg1.win 2).blk t).view.emb j)
    refine congrArg (V c main_v42) (funext fun a => Fin.ext ?_)
    match a with
    | ⟨0, _⟩ =>
      show win1_0.index t (0 : Fin 2) * 5000 + 1 * (j 0).val = win1_2.index t (0 : Fin 2) * 5000 + 1 * (j 0).val
      omega
    | ⟨1, _⟩ =>
      show win1_0.index t (1 : Fin 2) * 128 + 1 * (j 1).val = win1_2.index t (1 : Fin 2) * 128 + 1 * (j 1).val
      omega
  · -- the bias row's one block is the row itself, read at the entry's column
    show V c main_v43 (((cfg1.win 1).blk t).view.emb (ix2 (n0 := 1) (n1 := 128) ⟨0, Nat.one_pos⟩ (j 1)))
      = V c main_v43 (Cert.Spec.b128At (((cfg1.win 2).blk t).view.emb j))
    refine congrArg (V c main_v43) (funext fun a => Fin.ext ?_)
    match a with
    | ⟨0, _⟩ =>
      show win1_1.index t (0 : Fin 2) * 1 + 1 * 0 = 0
      omega
    | ⟨1, _⟩ =>
      show win1_1.index t (1 : Fin 2) * 128 + 1 * (j 1).val = win1_2.index t (1 : Fin 2) * 128 + 1 * (j 1).val
      omega

/-- An index of the hidden layer's array is in point `t`'s block iff each coordinate is in the block's range on its axis. -/
theorem mem_blk (t : Fin cfg1.N) (i : S50000x128.Idx) :
    i ∈ ((cfg1.win 2).blk t).view.set ↔ ∀ a : Fin 2, win1_2.index t a * S5000x128.size a ≤ (i a).val
      ∧ (i a).val < win1_2.index t a * S5000x128.size a + S5000x128.size a := by
  show i ∈ ((View.whole main_v44).slice (win1_2.rect t)).set ↔ _
  rw [View.set_slice_whole, Rect.mem_set_unit]
  exact Iff.rfl

/-- The ten row blocks fill the array: row r lies in the block of point r / 5000. -/
theorem cover (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  have hN : cfg1.N = 10 := by decide +kernel
  obtain ⟨t, ht⟩ : ∃ t : Fin cfg1.N, t.val = (i 0).val / 5000 := ⟨⟨(i 0).val / 5000, by rw [hN]; omega⟩, rfl⟩
  obtain ⟨e00, e01, e10, e11, e20, e21⟩ := idx_facts t
  refine ⟨t, flush1_2 t, ?_⟩
  rw [mem_blk]
  intro a
  match a with
  | ⟨0, _⟩ =>
    show win1_2.index t (0 : Fin 2) * 5000 ≤ (i 0).val ∧ (i 0).val < win1_2.index t (0 : Fin 2) * 5000 + 5000
    omega
  | ⟨1, _⟩ =>
    show win1_2.index t (1 : Fin 2) * 128 ≤ (i 1).val ∧ (i 1).val < win1_2.index t (1 : Fin 2) * 128 + 128
    omega

/-- After the ten row blocks have been written back, the hidden layer's array holds max(agg + b₁, 0) of the arrays the
    region found. -/
theorem final (c : Dev nD) :
    (dat1 (F := Ideal) V c).arrAt 2 cfg1.N = Cert.Spec.biasRelu (V c main_v42) (V c main_v43) :=
  (dat1 V c).arrAt_eq_of_cover 2 _ (fun t _ => flushed_eq V c t) cover

end Cert.KernelIdeal.Region1

end
-- ==== Proof.Region2.lean ====
/-
  Region 2: the second linear map, ten row blocks of 5000.

  Each grid point t multiplies rows 5000·t … 5000·t + 4999 of H (a [5000, 128] block) by the whole of W₂ ([128, 64]) on the
  matrix unit, after a reshape to the same shape and a change of float format (both the identity on the extended reals),
  into a zero accumulator, and writes the [5000, 64] result back as block t of the product's array. Entry (p, q) of a
  block product is Σ_k h[p, k] · w[k, q]; row p of block t is row 5000·t + p of the array; the ten blocks tile the 50000
  rows. So the array ends holding H · W₂.
-/
import proofs.«148890_j36051955482714_1_alg».proof.Proof.Gen.KernelIdeal.Frame
import proofs.«148890_j36051955482714_1_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Region2

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

/-- The body's loads and its store each start at the origin of their buffer. -/
theorem hz : (![0, 0] : Fin 2 → Nat) = fun _ => 0 := funext fun a => by fin_cases a <;> rfl

/-! ## The product of two blocks, entry by entry -/

/-- The left operand is read on the output's row … -/
theorem lhs_row (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
/-- … at the contracted channel; -/
theorem lhs_chan (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
/-- the right operand at the contracted channel … -/
theorem rhs_chan (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
/-- … on the output's column. -/
theorem rhs_col (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- Entry (p, q) of what the body stores: Σ_k h[p, k] · w[k, q] of the two loaded blocks (the reshape keeps the shape,
    the format change is the identity, the accumulator starts at zero, the contraction runs over the 128 hidden
    channels). -/
theorem blockProduct_apply (x0 : Vec Ideal S5000x128 .f32) (x1 : Vec Ideal S128x64 .f32) (p : Fin 5000) (q : Fin 64) :
    k2_pay1 x0 x1 (ix2 p q) = ∑ k : Fin 128, x0 (ix2 p k) * x1 (ix2 k q) := by
  unfold k2_pay1
  simp only [matmul, shapeCast_self]
  rw [Ideal.matmul_constant_zero_apply, ← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx (ix2 p q) ((ValueIdx.contrEquiv1 dot_S5000x128_S128x64_S5000x64_1_0_0_1_n_n 128 rfl rfl).symm k) = ix2 p k := funext fun a => Fin.ext (by
    match a with
    | ⟨0, _⟩ => exact lhs_row _ _
    | ⟨1, _⟩ => exact (lhs_chan _ _).trans hk)
  have er : dot_S5000x128_S128x64_S5000x64_1_0_0_1_n_n.rhsIdx (ix2 p q) ((ValueIdx.contrEquiv1 dot_S5000x128_S128x64_S5000x64_1_0_0_1_n_n 128 rfl rfl).symm k) = ix2 k q := funext fun a => Fin.ext (by
    match a with
    | ⟨0, _⟩ => exact (rhs_chan _ _).trans hk
    | ⟨1, _⟩ => exact rhs_col _ _)
  rw [el, er]
  rfl

/-! ## Where the blocks lie -/

/-- The windows' index maps, decided over the ten grid points: the rows' block and the product's block move with the
    point, the weights' block is the whole array. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- WHAT POINT `t` WRITES BACK is block `t` of H · W₂ of the arrays the region found. -/
theorem flushed_eq (c : Dev nD) (t : Fin cfg2.N) :
    (dat2 (F := Ideal) V c).flushed 2 t = ((cfg2.win 2).blk t).view.read (Elt Ideal) (Cert.Spec.lin2 (V c main_v44) (V c main_arg4)) := by
  show (cfg2.win 2).cut (grid2.coords t) ((dat2 (F := Ideal) V c).after 2 t) = _
  rw [after2_2]
  unfold out2_2
  rw [View.canon_unit_zero hz]
  simp only [View.ld_unit_zero (S := S5000x128) hz, View.ld_unit_zero (S := S128x64) hz]
  obtain ⟨e0, e1, e2, e3, e4, e5⟩ := idx_facts t
  funext j
  show k2_pay1 (iblk2 V c 0 t) (iblk2 V c 1 t) j = Cert.Spec.lin2 (V c main_v44) (V c main_arg4) (((cfg2.win 2).blk t).view.emb j)
  have hj : j = ix2 (n0 := 5000) (n1 := 64) (j 0) (j 1) := eq_ix2 j
  have hj0 : (j 0).val < 5000 := (j 0).isLt
  have hj1 : (j 1).val < 64 := (j 1).isLt
  refine (congrArg (k2_pay1 (iblk2 V c 0 t) (iblk2 V c 1 t)) hj).trans ?_
  refine (blockProduct_apply (iblk2 V c 0 t) (iblk2 V c 1 t) (j 0) (j 1)).trans ?_
  unfold Cert.Spec.lin2
  refine Finset.sum_congr rfl fun k _ => ?_
  -- the row block of H at (p, k) is H at (5000·t + p, k)
  have hh : ((cfg2.win 0).blk t).view.emb (ix2 (n0 := 5000) (n1 := 128) (j 0) k) = Cert.Spec.h128At (((cfg2.win 2).blk t).view.emb j) k := by
    funext a; apply Fin.ext
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 128 + 1 * k.val = k.val; omega
  -- the weights' block at (k, q) is W₂ at (k, q)
  have hw : ((cfg2.win 1).blk t).view.emb (ix2 (n0 := 128) (n1 := 64) k (j 1)) = Cert.Spec.w2At (((cfg2.win 2).blk t).view.emb j) k := by
    funext a; apply Fin.ext
    match a with
    | ⟨0, _⟩ => show win2_1.index t (0 : Fin 2) * 128 + 1 * k.val = k.val; omega
    | ⟨1, _⟩ => show win2_1.index t (1 : Fin 2) * 64 + 1 * (j 1).val = win2_2.index t (1 : Fin 2) * 64 + 1 * (j 1).val; omega
  exact congrArg₂ (fun a b : EReal => a * b) (congrArg (V c main_v44) hh) (congrArg (V c main_arg4) hw)

/-! ## The ten blocks tile the array -/

/-- An index of the product's array is in point `t`'s block iff each coordinate is in the block's range on its axis. -/
theorem mem_blk (t : Fin cfg2.N) (i : S50000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v45).slice (win2_2.rect t)).set ↔ _
  rw [View.set_slice_whole, Rect.mem_set_unit]
  exact Iff.rfl

/-- Row `r` lies in the block of point `r / 5000`, and every point writes its block back. -/
theorem cover (i : S50000x64.Idx) :
    ∃ t : Fin cfg2.N, (cfg2.win 2).flush t = true ∧ i ∈ ((cfg2.win 2).blk t).view.set := by
  have hi0 : (i 0).val < 50000 := (i 0).isLt
  have hi1 : (i 1).val < 64 := (i 1).isLt
  have ht : (i 0).val / 5000 < 10 := by omega
  obtain ⟨e0, e1, e2, e3, e4, e5⟩ := idx_facts ⟨(i 0).val / 5000, ht⟩
  have e4' : win2_2.index ⟨(i 0).val / 5000, ht⟩ (0 : Fin 2) = (i 0).val / 5000 := e4
  refine ⟨⟨(i 0).val / 5000, ht⟩, flush2_2 _, ?_⟩
  rw [mem_blk]
  intro a
  match a with
  | ⟨0, _⟩ => show win2_2.index ⟨(i 0).val / 5000, ht⟩ (0 : Fin 2) * 5000 ≤ (i 0).val ∧ (i 0).val < win2_2.index ⟨(i 0).val / 5000, ht⟩ (0 : Fin 2) * 5000 + 5000; omega
  | ⟨1, _⟩ => show win2_2.index ⟨(i 0).val / 5000, ht⟩ (1 : Fin 2) * 64 ≤ (i 1).val ∧ (i 1).val < win2_2.index ⟨(i 0).val / 5000, ht⟩ (1 : Fin 2) * 64 + 64; omega

/-- After the ten row blocks have been written back, the second product's array holds H · W₂ of the arrays the region
    found. -/
theorem final (c : Dev nD) :
    (dat2 (F := Ideal) V c).arrAt 2 cfg2.N = Cert.Spec.lin2 (V c main_v44) (V c main_arg4) :=
  (dat2 (F := Ideal) V c).arrAt_eq_of_cover 2 _ (fun t _ => flushed_eq V c t) cover

end Cert.KernelIdeal.Region2

end
-- ==== Proof.Region3.lean ====
/-
  Region 3: bias of the second layer, ten row blocks of 5000.
-/
import proofs.«148890_j36051955482714_1_alg».proof.Proof.Gen.KernelIdeal.Frame
import proofs.«148890_j36051955482714_1_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Region3

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

/-- The zero offsets of the body's loads and of its one store, as the constant function. -/
theorem hz : (![0, 0] : Fin 2 → Nat) = fun _ => 0 := funext fun a => by fin_cases a <;> rfl

/-- The body's value at entry (p, q) of its block: the aggregate's entry plus the bias of column q. -/
theorem pay_apply (x0 : Vec Ideal S5000x64 .f32) (x1 : Vec Ideal S1x64 .f32) (p : Fin 5000) (q : Fin 64) :
    k3_pay1 x0 x1 (ix2 p q) = x0 (ix2 p q) + x1 (ix2 (n0 := 1) (n1 := 64) ⟨0, Nat.one_pos⟩ q) := by
  unfold k3_pay1
  rw [addf_apply, shapeCast_self, shapeCast_self]
  have hb : broadcastTo S5000x64 x1 broadcasts_S1x64_S5000x64 (ix2 p q)
      = x1 (ix2 (n0 := 1) (n1 := 64) ⟨0, Nat.one_pos⟩ q) :=
    broadcastTo_apply x1 _ _ _ fun a => by
      match a with
      | ⟨0, _⟩ => rfl
      | ⟨1, _⟩ => rfl
  rw [hb]

/-- The same entry against whole arrays: when the block's entry is entry `i` of an array `a` and the bias row's entry of
    that column is the row `b`'s, the body's value there is the second layer's bias add of `a` and `b` at `i`. -/
theorem pay_entry (x0 : Vec Ideal S5000x64 .f32) (x1 : Vec Ideal S1x64 .f32)
    (a : Cert.Spec.Nodes64.Idx → EReal) (b : Cert.Spec.Row64.Idx → EReal) (j : S5000x64.Idx) (i : Cert.Spec.Nodes64.Idx)
    (h0 : x0 j = a i)
    (h1 : x1 (ix2 (n0 := 1) (n1 := 64) ⟨0, Nat.one_pos⟩ (j 1)) = b (Cert.Spec.b64At i)) :
    k3_pay1 x0 x1 j = Cert.Spec.biasAdd a b i := by
  refine (congrArg (k3_pay1 x0 x1) (eq_ix2 j)).trans ((pay_apply x0 x1 (j 0) (j 1)).trans ?_)
  show x0 (ix2 (j 0) (j 1)) + x1 _ = a i + b (Cert.Spec.b64At i)
  exact congrArg₂ (· + ·) ((congrArg x0 (eq_ix2 j).symm).trans h0) h1

/-- The printed index maps over the ten points: the aggregate's and the result's row block is the point's own, in the
    one column block; the bias row is always its one block. -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point `t` writes back is block `t` of agg + b₂ of the arrays the region found. -/
theorem flushed_eq (c : Dev nD) (t : Fin cfg3.N) :
    (dat3 (F := Ideal) V c).flushed 2 t
      = ((cfg3.win 2).blk t).view.read (Elt Ideal) (Cert.Spec.biasAdd (V c main_v58) (V c main_v59)) := by
  show (cfg3.win 2).cut (grid3.coords t) ((dat3 V c).after 2 t) = _
  rw [after3_2]
  unfold out3_2
  rw [View.canon_unit_zero hz]
  simp only [View.ld_unit_zero (S := S5000x64) hz, View.ld_unit_zero (S := S1x64) hz]
  obtain ⟨e00, e01, e10, e11, e20, e21⟩ := idx_facts t
  funext j
  show k3_pay1 (iblk3 V c 0 t) (iblk3 V c 1 t) j
    = Cert.Spec.biasAdd (V c main_v58) (V c main_v59) (((cfg3.win 2).blk t).view.emb j)
  refine pay_entry _ _ _ _ j _ ?_ ?_
  · -- the aggregate's block is read where the result's block lies
    show V c main_v58 (((cfg3.win 0).blk t).view.emb j) = V c main_v58 (((cfg3.win 2).blk t).view.emb j)
    refine congrArg (V c main_v58) (funext fun a => Fin.ext ?_)
    match a with
    | ⟨0, _⟩ =>
      show win3_0.index t (0 : Fin 2) * 5000 + 1 * (j 0).val = win3_2.index t (0 : Fin 2) * 5000 + 1 * (j 0).val
      omega
    | ⟨1, _⟩ =>
      show win3_0.index t (1 : Fin 2) * 64 + 1 * (j 1).val = win3_2.index t (1 : Fin 2) * 64 + 1 * (j 1).val
      omega
  · -- the bias row's one block is the row itself, read at the entry's column
    show V c main_v59 (((cfg3.win 1).blk t).view.emb (ix2 (n0 := 1) (n1 := 64) ⟨0, Nat.one_pos⟩ (j 1)))
      = V c main_v59 (Cert.Spec.b64At (((cfg3.win 2).blk t).view.emb j))
    refine congrArg (V c main_v59) (funext fun a => Fin.ext ?_)
    match a with
    | ⟨0, _⟩ =>
      show win3_1.index t (0 : Fin 2) * 1 + 1 * 0 = 0
      omega
    | ⟨1, _⟩ =>
      show win3_1.index t (1 : Fin 2) * 64 + 1 * (j 1).val = win3_2.index t (1 : Fin 2) * 64 + 1 * (j 1).val
      omega

/-- An index of the result array is in point `t`'s block iff each coordinate is in the block's range on its axis. -/
theorem mem_blk (t : Fin cfg3.N) (i : S50000x64.Idx) :
    i ∈ ((cfg3.win 2).blk t).view.set ↔ ∀ a : Fin 2, win3_2.index t a * S5000x64.size a ≤ (i a).val
      ∧ (i a).val < win3_2.index t a * S5000x64.size a + S5000x64.size a := by
  show i ∈ ((View.whole main_v60).slice (win3_2.rect t)).set ↔ _
  rw [View.set_slice_whole, Rect.mem_set_unit]
  exact Iff.rfl

/-- The ten row blocks fill the array: row r lies in the block of point r / 5000. -/
theorem cover (i : S50000x64.Idx) :
    ∃ t : Fin cfg3.N, (cfg3.win 2).flush t = true ∧ i ∈ ((cfg3.win 2).blk t).view.set := by
  have hi0 : (i 0).val < 50000 := (i 0).isLt
  have hi1 : (i 1).val < 64 := (i 1).isLt
  have hN : cfg3.N = 10 := by decide +kernel
  obtain ⟨t, ht⟩ : ∃ t : Fin cfg3.N, t.val = (i 0).val / 5000 := ⟨⟨(i 0).val / 5000, by rw [hN]; omega⟩, rfl⟩
  obtain ⟨e00, e01, e10, e11, e20, e21⟩ := idx_facts t
  refine ⟨t, flush3_2 t, ?_⟩
  rw [mem_blk]
  intro a
  match a with
  | ⟨0, _⟩ =>
    show win3_2.index t (0 : Fin 2) * 5000 ≤ (i 0).val ∧ (i 0).val < win3_2.index t (0 : Fin 2) * 5000 + 5000
    omega
  | ⟨1, _⟩ =>
    show win3_2.index t (1 : Fin 2) * 64 ≤ (i 1).val ∧ (i 1).val < win3_2.index t (1 : Fin 2) * 64 + 64
    omega

/-- After the ten row blocks have been written back, the result array holds agg + b₂ of the arrays the region found. -/
theorem final (c : Dev nD) :
    (dat3 (F := Ideal) V c).arrAt 2 cfg3.N = Cert.Spec.biasAdd (V c main_v58) (V c main_v59) :=
  (dat3 V c).arrAt_eq_of_cover 2 _ (fun t _ => flushed_eq V c t) cover

end Cert.KernelIdeal.Region3

end
-- ==== Proof.KernelValue.lean ====
/-
  The kernel program's result as a function of its arguments, at the ideal instance.

  The run leaves the result array at the last boundary's contents. Those contents are a fold through the program:
  a stretch of host operations, the first product's region, a stretch (gather along the sources, scaling by the edge
  norms, scatter-add at the destinations), the bias-and-rectifier region, the second product's region, the same
  stretch again, and the bias region. Walking the fold back, boundary by boundary, every array a later stage reads
  is named as the reference's own stage function of the arguments: the index vectors (sources and destinations with
  the self loops appended) and the edge norms after the first stretch; X · W₁ after the first region; its
  aggregation after the second stretch; the hidden layer, H · W₂, its aggregation, and at last the result.
  The sparse stretches are the same operations in both programs and are never opened: only the four dense stages
  are compared entry by entry (the region modules and `RefSpec`).
-/
import proofs.«148890_j36051955482714_1_alg».proof.Proof.Gen.KernelIdeal.Frame
import proofs.«148890_j36051955482714_1_alg».proof.Proof.Gen.ReferenceIdeal.Read
import proofs.«148890_j36051955482714_1_alg».proof.Proof.Spec
import proofs.«148890_j36051955482714_1_alg».proof.Proof.RefSpec
import proofs.«148890_j36051955482714_1_alg».proof.Proof.Region0
import proofs.«148890_j36051955482714_1_alg».proof.Proof.Region1
import proofs.«148890_j36051955482714_1_alg».proof.Proof.Region2
import proofs.«148890_j36051955482714_1_alg».proof.Proof.Region3
import Idealize.ShloMosaic.Lib.StableHlo.Run
import Idealize.ShloMosaic.Lib.Pipeline.Value
import Idealize.ShloMosaic.Lib.ValueIdx

set_option maxRecDepth 16384

noncomputable section

namespace Cert.KernelIdeal.KernelValue

open Idealize.ShloMosaic Idealize.ShloMosaic.TcCoe Idealize.ShloMosaic.ValueIdx Idealize.SL.Sem Idealize.ShloMosaic.StableHlo
open Cert.KernelIdeal Cert.KernelIdeal.Gen

variable (m : (ℓ : Loc nD τ sig) → Buf (Elt Ideal) ℓ) (ρ : Dev nD → PrngReg)

/-! ## The arguments, typed as the reference's stage functions take them -/

abbrev X0 (c : Dev nD) : (⟨Cert.ReferenceIdeal.S50000x64, .f32⟩ : BufTy).Contents (Elt Ideal) := m ((c : Thread nD τ).loc main_arg0)
abbrev X1 (c : Dev nD) : (⟨Cert.ReferenceIdeal.S2x800000, .i32⟩ : BufTy).Contents (Elt Ideal) := m ((c : Thread nD τ).loc main_arg1)
abbrev X2 (c : Dev nD) : (⟨Cert.ReferenceIdeal.S64x128, .f32⟩ : BufTy).Contents (Elt Ideal) := m ((c : Thread nD τ).loc main_arg2)
abbrev X3 (c : Dev nD) : (⟨Cert.ReferenceIdeal.S128, .f32⟩ : BufTy).Contents (Elt Ideal) := m ((c : Thread nD τ).loc main_arg3)
abbrev X4 (c : Dev nD) : (⟨Cert.ReferenceIdeal.S128x64, .f32⟩ : BufTy).Contents (Elt Ideal) := m ((c : Thread nD τ).loc main_arg4)
abbrev X5 (c : Dev nD) : (⟨Cert.ReferenceIdeal.S64, .f32⟩ : BufTy).Contents (Elt Ideal) := m ((c : Thread nD τ).loc main_arg5)

/-! ## After the first stretch of host operations -/

/-- The sources with the self loops appended. -/
theorem W1_src (c : Dev nD) :
    W1 m ρ c (Proc.devRef .tc main_v5) = Cert.ReferenceIdeal.Read.val_main_v6 (F := Ideal) (X1 m c) := by
  show StableHlo.after hostOps0 (W0 m ρ c) (Proc.devRef .tc main_v5) = _
  simp only [hostOps0]
  after_results_simp
  rfl

/-- The destinations with the self loops appended. -/
theorem W1_dst (c : Dev nD) :
    W1 m ρ c (Proc.devRef .tc main_v6) = Cert.ReferenceIdeal.Read.val_main_v7 (F := Ideal) (X1 m c) := by
  show StableHlo.after hostOps0 (W0 m ρ c) (Proc.devRef .tc main_v6) = _
  simp only [hostOps0]
  after_results_simp
  rfl

/-- The edge norms: the inverse square roots of the two end points' degrees, multiplied. -/
theorem W1_norm (c : Dev nD) :
    W1 m ρ c (Proc.devRef .tc main_v28) = Cert.ReferenceIdeal.Read.val_main_v29 (F := Ideal) (X1 m c) := by
  show StableHlo.after hostOps0 (W0 m ρ c) (Proc.devRef .tc main_v28) = _
  simp only [hostOps0]
  after_results_simp
  rfl

/-- The stretch writes no argument. -/
theorem W1_arg0 (c : Dev nD) : W1 m ρ c (Proc.devRef .tc main_arg0) = X0 m c := by
  show StableHlo.after hostOps0 (W0 m ρ c) (Proc.devRef .tc main_arg0) = _
  simp only [hostOps0]
  after_results_simp
theorem W1_arg2 (c : Dev nD) : W1 m ρ c (Proc.devRef .tc main_arg2) = X2 m c := by
  show StableHlo.after hostOps0 (W0 m ρ c) (Proc.devRef .tc main_arg2) = _
  simp only [hostOps0]
  after_results_simp
theorem W1_arg3 (c : Dev nD) : W1 m ρ c (Proc.devRef .tc main_arg3) = X3 m c := by
  show StableHlo.after hostOps0 (W0 m ρ c) (Proc.devRef .tc main_arg3) = _
  simp only [hostOps0]
  after_results_simp
theorem W1_arg4 (c : Dev nD) : W1 m ρ c (Proc.devRef .tc main_arg4) = X4 m c := by
  show StableHlo.after hostOps0 (W0 m ρ c) (Proc.devRef .tc main_arg4) = _
  simp only [hostOps0]
  after_results_simp
theorem W1_arg5 (c : Dev nD) : W1 m ρ c (Proc.devRef .tc main_arg5) = X5 m c := by
  show StableHlo.after hostOps0 (W0 m ρ c) (Proc.devRef .tc main_arg5) = _
  simp only [hostOps0]
  after_results_simp

/-! ## After the first region: X · W₁ -/

/-- The first product's array. -/
theorem W2_lin1 (c : Dev nD) :
    W2 m ρ c (Proc.devRef .tc main_v29) = Cert.ReferenceIdeal.Read.val_main_v4 (F := Ideal) (X0 m c) (X2 m c) := by
  refine (W2_arr m ρ c 2).trans ?_
  rw [Cert.KernelIdeal.Region0.final (V1 m ρ) c]
  show Cert.Spec.lin1 (W1 m ρ c (Proc.devRef .tc main_arg0)) (W1 m ρ c (Proc.devRef .tc main_arg2)) = _
  rw [W1_arg0, W1_arg2]
  exact (Cert.ReferenceIdeal.RefSpec.lin1_eq _ _).symm

/-- The region leaves every array that is not one of its windows' as it found it. -/
theorem W2_src (c : Dev nD) :
    W2 m ρ c (Proc.devRef .tc main_v5) = Cert.ReferenceIdeal.Read.val_main_v6 (F := Ideal) (X1 m c) :=
  (W2_of_ne m ρ c main_v5 (by decide)).trans (W1_src m ρ c)
theorem W2_dst (c : Dev nD) :
    W2 m ρ c (Proc.devRef .tc main_v6) = Cert.ReferenceIdeal.Read.val_main_v7 (F := Ideal) (X1 m c) :=
  (W2_of_ne m ρ c main_v6 (by decide)).trans (W1_dst m ρ c)
theorem W2_norm (c : Dev nD) :
    W2 m ρ c (Proc.devRef .tc main_v28) = Cert.ReferenceIdeal.Read.val_main_v29 (F := Ideal) (X1 m c) :=
  (W2_of_ne m ρ c main_v28 (by decide)).trans (W1_norm m ρ c)
theorem W2_arg3 (c : Dev nD) : W2 m ρ c (Proc.devRef .tc main_arg3) = X3 m c :=
  (W2_of_ne m ρ c main_arg3 (by decide)).trans (W1_arg3 m ρ c)
theorem W2_arg4 (c : Dev nD) : W2 m ρ c (Proc.devRef .tc main_arg4) = X4 m c :=
  (W2_of_ne m ρ c main_arg4 (by decide)).trans (W1_arg4 m ρ c)
theorem W2_arg5 (c : Dev nD) : W2 m ρ c (Proc.devRef .tc main_arg5) = X5 m c :=
  (W2_of_ne m ρ c main_arg5 (by decide)).trans (W1_arg5 m ρ c)

/-! ## After the second stretch: the first aggregation and the bias row -/

/-- The aggregated first product: gathered along the sources, scaled by the edge norms, scatter-added at the
    destinations — the reference's own stage of the same arguments. -/
theorem W3_agg1 (c : Dev nD) :
    W3 m ρ c (Proc.devRef .tc main_v42)
      = Cert.ReferenceIdeal.Read.val_main_v42 (F := Ideal) (X0 m c) (X1 m c) (X2 m c) := by
  show StableHlo.after hostOps1 (W2 m ρ c) (Proc.devRef .tc main_v42) = _
  simp only [hostOps1]
  after_results_simp
  rw [W2_lin1, W2_src, W2_dst, W2_norm]
  rfl

/-- The 128-channel bias as one row: the kernel's program reshapes it, the reference broadcasts it along a new leading
    axis; either way entry (0, c) is the bias at c. -/
theorem row128_eq (b : (⟨Cert.ReferenceIdeal.S128, .f32⟩ : BufTy).Contents (Elt Ideal)) :
    shapeCast S1x128 b shapeCasts_S128_S1x128 = Cert.ReferenceIdeal.Read.val_main_v43 (F := Ideal) b := by
  funext i
  rw [Cert.ReferenceIdeal.Read.val_main_v43_apply]
  refine shapeCast_apply b _ i (Cert.ReferenceIdeal.Read.idx_main_v43 i) ?_
  rw [Shape.rowMajor_val_one, Shape.rowMajor_val_two]
  have h0 : (i 0).val < 1 := (i 0).isLt
  show (i 1).val = (i 0).val * 128 + (i 1).val
  omega

theorem W3_row1 (c : Dev nD) : W3 m ρ c (Proc.devRef .tc main_v43) = Cert.ReferenceIdeal.Read.val_main_v43 (F := Ideal) (X3 m c) := by
  show StableHlo.after hostOps1 (W2 m ρ c) (Proc.devRef .tc main_v43) = _
  simp only [hostOps1]
  after_results_simp
  rw [W2_arg3]
  exact row128_eq (X3 m c)

/-- The stretch writes neither the index vectors, the norms, nor the arguments. -/
theorem W3_src (c : Dev nD) : W3 m ρ c (Proc.devRef .tc main_v5) = Cert.ReferenceIdeal.Read.val_main_v6 (F := Ideal) (X1 m c) := by
  show StableHlo.after hostOps1 (W2 m ρ c) (Proc.devRef .tc main_v5) = _
  simp only [hostOps1]
  after_results_simp
  exact W2_src m ρ c
theorem W3_dst (c : Dev nD) : W3 m ρ c (Proc.devRef .tc main_v6) = Cert.ReferenceIdeal.Read.val_main_v7 (F := Ideal) (X1 m c) := by
  show StableHlo.after hostOps1 (W2 m ρ c) (Proc.devRef .tc main_v6) = _
  simp only [hostOps1]
  after_results_simp
  exact W2_dst m ρ c
theorem W3_norm (c : Dev nD) : W3 m ρ c (Proc.devRef .tc main_v28) = Cert.ReferenceIdeal.Read.val_main_v29 (F := Ideal) (X1 m c) := by
  show StableHlo.after hostOps1 (W2 m ρ c) (Proc.devRef .tc main_v28) = _
  simp only [hostOps1]
  after_results_simp
  exact W2_norm m ρ c
theorem W3_arg4 (c : Dev nD) : W3 m ρ c (Proc.devRef .tc main_arg4) = X4 m c := by
  show StableHlo.after hostOps1 (W2 m ρ c) (Proc.devRef .tc main_arg4) = _
  simp only [hostOps1]
  after_results_simp
  exact W2_arg4 m ρ c
theorem W3_arg5 (c : Dev nD) : W3 m ρ c (Proc.devRef .tc main_arg5) = X5 m c := by
  show StableHlo.after hostOps1 (W2 m ρ c) (Proc.devRef .tc main_arg5) = _
  simp only [hostOps1]
  after_results_simp
  exact W2_arg5 m ρ c

/-! ## After the second region: the hidden layer -/

theorem W4_hidden (c : Dev nD) :
    W4 m ρ c (Proc.devRef .tc main_v44)
      = Cert.ReferenceIdeal.Read.val_main_v46 (F := Ideal) (X0 m c) (X1 m c) (X2 m c) (X3 m c) := by
  refine (W4_arr m ρ c 2).trans ?_
  rw [Cert.KernelIdeal.Region1.final (V3 m ρ) c]
  show Cert.Spec.biasRelu (W3 m ρ c (Proc.devRef .tc main_v42)) (W3 m ρ c (Proc.devRef .tc main_v43)) = _
  rw [W3_agg1, W3_row1]
  exact (Cert.ReferenceIdeal.RefSpec.hidden_eq _ _ _ _).symm

theorem W4_src (c : Dev nD) : W4 m ρ c (Proc.devRef .tc main_v5) = Cert.ReferenceIdeal.Read.val_main_v6 (F := Ideal) (X1 m c) :=
  (W4_of_ne m ρ c main_v5 (by decide)).trans (W3_src m ρ c)
theorem W4_dst (c : Dev nD) : W4 m ρ c (Proc.devRef .tc main_v6) = Cert.ReferenceIdeal.Read.val_main_v7 (F := Ideal) (X1 m c) :=
  (W4_of_ne m ρ c main_v6 (by decide)).trans (W3_dst m ρ c)
theorem W4_norm (c : Dev nD) : W4 m ρ c (Proc.devRef .tc main_v28) = Cert.ReferenceIdeal.Read.val_main_v29 (F := Ideal) (X1 m c) :=
  (W4_of_ne m ρ c main_v28 (by decide)).trans (W3_norm m ρ c)
theorem W4_arg4 (c : Dev nD) : W4 m ρ c (Proc.devRef .tc main_arg4) = X4 m c :=
  (W4_of_ne m ρ c main_arg4 (by decide)).trans (W3_arg4 m ρ c)
theorem W4_arg5 (c : Dev nD) : W4 m ρ c (Proc.devRef .tc main_arg5) = X5 m c :=
  (W4_of_ne m ρ c main_arg5 (by decide)).trans (W3_arg5 m ρ c)

/-! ## After the third region: H · W₂ -/

theorem W5_lin2 (c : Dev nD) :
    W5 m ρ c (Proc.devRef .tc main_v45)
      = Cert.ReferenceIdeal.Read.val_main_v47 (F := Ideal) (X0 m c) (X1 m c) (X2 m c) (X3 m c) (X4 m c) := by
  refine (W5_arr m ρ c 2).trans ?_
  rw [Cert.KernelIdeal.Region2.final (V4 m ρ) c]
  show Cert.Spec.lin2 (W4 m ρ c (Proc.devRef .tc main_v44)) (W4 m ρ c (Proc.devRef .tc main_arg4)) = _
  rw [W4_hidden, W4_arg4]
  exact (Cert.ReferenceIdeal.RefSpec.lin2_eq _ _ _ _ _).symm

theorem W5_src (c : Dev nD) : W5 m ρ c (Proc.devRef .tc main_v5) = Cert.ReferenceIdeal.Read.val_main_v6 (F := Ideal) (X1 m c) :=
  (W5_of_ne m ρ c main_v5 (by decide)).trans (W4_src m ρ c)
theorem W5_dst (c : Dev nD) : W5 m ρ c (Proc.devRef .tc main_v6) = Cert.ReferenceIdeal.Read.val_main_v7 (F := Ideal) (X1 m c) :=
  (W5_of_ne m ρ c main_v6 (by decide)).trans (W4_dst m ρ c)
theorem W5_norm (c : Dev nD) : W5 m ρ c (Proc.devRef .tc main_v28) = Cert.ReferenceIdeal.Read.val_main_v29 (F := Ideal) (X1 m c) :=
  (W5_of_ne m ρ c main_v28 (by decide)).trans (W4_norm m ρ c)
theorem W5_arg5 (c : Dev nD) : W5 m ρ c (Proc.devRef .tc main_arg5) = X5 m c :=
  (W5_of_ne m ρ c main_arg5 (by decide)).trans (W4_arg5 m ρ c)

/-! ## After the third stretch: the second aggregation and the bias row -/

/-- The aggregated second product. The reference computes the index vectors and the edge norms a second time for
    its second layer, by the same operations of the same edge array: the same vectors. -/
theorem W6_agg2 (c : Dev nD) :
    W6 m ρ c (Proc.devRef .tc main_v58)
      = Cert.ReferenceIdeal.Read.val_main_v85 (F := Ideal) (X0 m c) (X1 m c) (X2 m c) (X3 m c) (X4 m c) := by
  show StableHlo.after hostOps3 (W5 m ρ c) (Proc.devRef .tc main_v58) = _
  simp only [hostOps3]
  after_results_simp
  rw [W5_lin2, W5_src, W5_dst, W5_norm]
  rfl

/-- The 64-channel bias as one row. -/
theorem row64_eq (b : (⟨Cert.ReferenceIdeal.S64, .f32⟩ : BufTy).Contents (Elt Ideal)) :
    shapeCast S1x64 b shapeCasts_S64_S1x64 = Cert.ReferenceIdeal.Read.val_main_v86 (F := Ideal) b := by
  funext i
  rw [Cert.ReferenceIdeal.Read.val_main_v86_apply]
  refine shapeCast_apply b _ i (Cert.ReferenceIdeal.Read.idx_main_v86 i) ?_
  rw [Shape.rowMajor_val_one, Shape.rowMajor_val_two]
  have h0 : (i 0).val < 1 := (i 0).isLt
  show (i 1).val = (i 0).val * 64 + (i 1).val
  omega

theorem W6_row2 (c : Dev nD) : W6 m ρ c (Proc.devRef .tc main_v59) = Cert.ReferenceIdeal.Read.val_main_v86 (F := Ideal) (X5 m c) := by
  show StableHlo.after hostOps3 (W5 m ρ c) (Proc.devRef .tc main_v59) = _
  simp only [hostOps3]
  after_results_simp
  rw [W5_arg5]
  exact row64_eq (X5 m c)

/-! ## After the last region: the result -/

/-- THE RESULT: the last boundary's contents at the result array are the reference's result stage of the same
    arguments. -/
theorem W7_out (c : Dev nD) :
    W7 m ρ c (Proc.devRef .tc main_v60)
      = Cert.ReferenceIdeal.Read.val_main_v88 (F := Ideal) (X0 m c) (X1 m c) (X2 m c) (X3 m c) (X4 m c) (X5 m c) := by
  refine (W7_arr m ρ c 2).trans ?_
  rw [Cert.KernelIdeal.Region3.final (V6 m ρ) c]
  show Cert.Spec.biasAdd (W6 m ρ c (Proc.devRef .tc main_v58)) (W6 m ρ c (Proc.devRef .tc main_v59)) = _
  rw [W6_agg2, W6_row2]
  exact (Cert.ReferenceIdeal.RefSpec.out_eq _ _ _ _ _ _).symm

end Cert.KernelIdeal.KernelValue

end
-- ==== Proof.lean ====
/-
  Two-layer graph convolution: out = Â · relu(Â · (X · W₁) + b₁) · W₂ + b₂ with Â the symmetrically normalised adjacency
  with self loops. The kernel's program computes the two dense products X · W₁ and H · W₂ and the two bias passes in
  four tiled regions (ten blocks of 5000 rows each; the products on the matrix unit after a change of float format,
  which is the identity on the extended reals) and leaves the sparse product with Â — gather along the sources,
  scaling by the edge norms, scatter-add at the destinations — to the same host operations the reference uses.

  The claim. The three programs run and keep their arguments (the frames: the kernel programs' by their generated frame
  certificates, the reference's by its generated run). The idealization rewrote nothing, so `preserves` is `True`.
  For the equivalence, both programs end with the result array at ONE function of the arguments, the reference's own
  stage function of the result: the reference by its generated run and its reading stage by stage; the kernel's program
  by its run with the result array named (`KernelRun`) and the walk of that run's boundary contents back to the
  arguments (`KernelValue`), in which each region's array is the matching dense stage entry by entry (`Region0` …
  `Region3` against `Spec`, and `RefSpec` for the reference's side of the same four stages) and the sparse stretches
  are carried along unopened. No law of the extended reals beyond reindexing a finite sum is used, so the precondition
  (finite inputs) is never opened.
-/
import proofs.«148890_j36051955482714_1_alg».proof.Defs
import proofs.«148890_j36051955482714_1_alg».proof.Proof.Gen.Kernel
import proofs.«148890_j36051955482714_1_alg».proof.Proof.Gen.Kernel.Skeleton
import proofs.«148890_j36051955482714_1_alg».proof.Proof.Gen.Kernel.Launch
import proofs.«148890_j36051955482714_1_alg».proof.Proof.Gen.Kernel.Points
import proofs.«148890_j36051955482714_1_alg».proof.Proof.Gen.Kernel.Frame
import proofs.«148890_j36051955482714_1_alg».proof.Proof.Gen.KernelIdeal
import proofs.«148890_j36051955482714_1_alg».proof.Proof.Gen.KernelIdeal.Skeleton
import proofs.«148890_j36051955482714_1_alg».proof.Proof.Gen.KernelIdeal.Launch
import proofs.«148890_j36051955482714_1_alg».proof.Proof.Gen.KernelIdeal.Points
import proofs.«148890_j36051955482714_1_alg».proof.Proof.Gen.KernelIdeal.Frame
import proofs.«148890_j36051955482714_1_alg».proof.Proof.Gen.ReferenceIdeal
import proofs.«148890_j36051955482714_1_alg».proof.Proof.Gen.Pre_finite_inputs
import proofs.«148890_j36051955482714_1_alg».proof.Proof.Gen.ReferenceIdeal.Run
import proofs.«148890_j36051955482714_1_alg».proof.Proof.Gen.ReferenceIdeal.Read
import proofs.«148890_j36051955482714_1_alg».proof.Proof.KernelRun
import proofs.«148890_j36051955482714_1_alg».proof.Proof.KernelValue
import Idealize.ShloMosaic.Adequacy
import Idealize.ShloMosaic.Init

noncomputable section

namespace Cert.Proof

open Idealize.ShloMosaic Idealize.SL.Sem

/-- The kernel's program as printed runs and keeps its arguments: its generated frame certificate. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference has no kernel: its frame is its generated run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the result at the reference's result stage of the
    kernel program's arguments. -/
theorem algebraic : Cert.algebraic_KernelIdeal_ReferenceIdeal := by
  intro m ρ m' ρ' _ hagree
  refine ⟨fun c => Cert.ReferenceIdeal.Read.val_main_v88 (F := Ideal)
      (Cert.KernelIdeal.KernelValue.X0 m c) (Cert.KernelIdeal.KernelValue.X1 m c) (Cert.KernelIdeal.KernelValue.X2 m c)
      (Cert.KernelIdeal.KernelValue.X3 m c) (Cert.KernelIdeal.KernelValue.X4 m c) (Cert.KernelIdeal.KernelValue.X5 m c), ?_, ?_⟩
  · exact (θ_run Cert.KernelIdeal.defs _ _).mono
      (fun r h c => ⟨(h c).1.trans (Cert.KernelIdeal.KernelValue.W7_out m ρ c), (h c).2⟩)
      (Cert.KernelIdeal.KernelRun.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v88_eq, (hagree c).1, (hagree c).2.1, (hagree c).2.2.1, (hagree c).2.2.2.1,
      (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
